-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000x256 : Shape := ⟨2, ![50000, 256]⟩
abbrev S2000x128 : Shape := ⟨2, ![2000, 128]⟩
abbrev S2000x256 : Shape := ⟨2, ![2000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S2000x1 : Shape := ⟨2, ![2000, 1]⟩
abbrev S800000x128 : Shape := ⟨2, ![800000, 128]⟩
abbrev S1x128 : Shape := ⟨2, ![1, 128]⟩

abbrev nBuf : Space → Nat
  | .hbm => 114
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .bf16⟩
  | .hbm, ⟨11, _⟩ => ⟨S128x256, .bf16⟩
  | .hbm, ⟨12, _⟩ => ⟨S50000x256, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S800000x1, .f32⟩
  | .hbm, ⟨52, _⟩ => ⟨S800000x256, .f32⟩
  | .hbm, ⟨53, _⟩ => ⟨S800000x256, .f32⟩
  | .hbm, ⟨54, _⟩ => ⟨S_, .f32⟩
  | .hbm, ⟨55, _⟩ => ⟨S50000x256, .f32⟩
  | .hbm, ⟨56, _⟩ => ⟨S800000x1, .i32⟩
  | .hbm, ⟨57, _⟩ => ⟨S50000x256, .f32⟩
  | .hbm, ⟨58, _⟩ => ⟨S50000, .f32⟩
  | .hbm, ⟨59, _⟩ => ⟨S50000x1, .f32⟩
  | .hbm, ⟨60, _⟩ => ⟨S1x256, .f32⟩
  | .hbm, ⟨61, _⟩ => ⟨S50000x256, .f32⟩
  | .hbm, ⟨62, _⟩ => ⟨S50000x256, .bf16⟩
  | .hbm, ⟨63, _⟩ => ⟨S256x128, .bf16⟩
  | .hbm, ⟨64, _⟩ => ⟨S50000x128, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000, .f32⟩
  | .hbm, ⟨93, _⟩ => ⟨S800000, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x128, .f32⟩
  | .hbm, ⟨103, _⟩ => ⟨S800000x1, .f32⟩
  | .hbm, ⟨104, _⟩ => ⟨S800000x128, .f32⟩
  | .hbm, ⟨105, _⟩ => ⟨S800000x128, .f32⟩
  | .hbm, ⟨106, _⟩ => ⟨S_, .f32⟩
  | .hbm, ⟨107, _⟩ => ⟨S50000x128, .f32⟩
  | .hbm, ⟨108, _⟩ => ⟨S800000x1, .i32⟩
  | .hbm, ⟨109, _⟩ => ⟨S50000x128, .f32⟩
  | .hbm, ⟨110, _⟩ => ⟨S50000, .f32⟩
  | .hbm, ⟨111, _⟩ => ⟨S50000x1, .f32⟩
  | .hbm, ⟨112, _⟩ => ⟨S1x128, .f32⟩
  | .hbm, ⟨113, _⟩ => ⟨S50000x128, .f32⟩
  | .local _ .vmem, ⟨0, _⟩ => ⟨S2000x128, .bf16⟩
  | .local _ .vmem, ⟨1, _⟩ => ⟨S2000x128, .bf16⟩
  | .local _ .vmem, ⟨2, _⟩ => ⟨S128x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .bf16⟩
  | .local _ .vmem, ⟨15, _⟩ => ⟨S2000x256, .bf16⟩
  | .local _ .vmem, ⟨16, _⟩ => ⟨S256x128, .bf16⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_11 : Ref sig .tc := ⟨.hbm, 75, rfl⟩
abbrev main_v56 : Ref sig .tc := ⟨.hbm, 76, rfl⟩
abbrev main_v57 : Ref sig .tc := ⟨.hbm, 77, rfl⟩
abbrev main_c_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_13 : Ref sig .tc := ⟨.hbm, 84, rfl⟩
abbrev main_v63 : Ref sig .tc := ⟨.hbm, 85, rfl⟩
abbrev main_v64 : Ref sig .tc := ⟨.hbm, 86, rfl⟩
abbrev main_c_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_15 : Ref sig .tc := ⟨.hbm, 94, rfl⟩
abbrev main_v71 : Ref sig .tc := ⟨.hbm, 95, rfl⟩
abbrev main_v72 : Ref sig .tc := ⟨.hbm, 96, rfl⟩
abbrev main_c_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_17 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x256_S2000x256_0_0 : ∀ a, (![0, 0] : Fin 2 → Nat) a + S2000x256.size a ≤ S2000x256.size a
  h_S2000x256 : 0 < S2000x256.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S50000_S50000x1 : S50000.ShapeCasts S50000x1
  shapeCasts_S256_S1x256 : S256.ShapeCasts S1x256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S2000x128_S128x256_S2000x256_1_0_0_1_n_n_wf : DotDims.WF S2000x128 S128x256 S2000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .bf16 = 32 ∨ (Rect.block (s := S50000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .bf16 = 32 ∨ (Rect.block (s := S256x128) S256x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v4) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v86) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S800000x128 : Shape := ⟨2, ![800000, 128]⟩
abbrev S1x128 : Shape := ⟨2, ![1, 128]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S800000x1, .f32⟩
  | .hbm, ⟨50, _⟩ => ⟨S800000x256, .f32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S50000, .f32⟩
  | .hbm, ⟨57, _⟩ => ⟨S50000x1, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S50000x256, .f32⟩
  | .hbm, ⟨64, _⟩ => ⟨S_, .f32⟩
  | .hbm, ⟨65, _⟩ => ⟨S50000x256, .f32⟩
  | .hbm, ⟨66, _⟩ => ⟨S50000x256, .f32⟩
  | .hbm, ⟨67, _⟩ => ⟨S50000x128, .f32⟩
  | .hbm, ⟨68, _⟩ => ⟨S_, .f32⟩
  | .hbm, ⟨69, _⟩ => ⟨S800000, .f32⟩
  | .hbm, ⟨70, _⟩ => ⟨S_, .f32⟩
  | .hbm, ⟨71, _⟩ => ⟨S50000, .f32⟩
  | .hbm, ⟨72, _⟩ => ⟨S800000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000, .f32⟩
  | .hbm, ⟨96, _⟩ => ⟨S800000, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x128, .f32⟩
  | .hbm, ⟨106, _⟩ => ⟨S800000x1, .f32⟩
  | .hbm, ⟨107, _⟩ => ⟨S800000x128, .f32⟩
  | .hbm, ⟨108, _⟩ => ⟨S800000x128, .f32⟩
  | .hbm, ⟨109, _⟩ => ⟨S_, .f32⟩
  | .hbm, ⟨110, _⟩ => ⟨S50000x128, .f32⟩
  | .hbm, ⟨111, _⟩ => ⟨S800000x1, .i32⟩
  | .hbm, ⟨112, _⟩ => ⟨S50000x128, .f32⟩
  | .hbm, ⟨113, _⟩ => ⟨S50000, .f32⟩
  | .hbm, ⟨114, _⟩ => ⟨S50000x1, .f32⟩
  | .hbm, ⟨115, _⟩ => ⟨S50000x128, .f32⟩
  | .hbm, ⟨116, _⟩ => ⟨S50000x128, .f32⟩
  | .hbm, ⟨117, _⟩ => ⟨S50000x128, .f32⟩
  | .hbm, ⟨118, _⟩ => ⟨S1x128, .f32⟩
  | .hbm, ⟨119, _⟩ => ⟨S50000x128, .f32⟩
  | .hbm, ⟨120, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x256_S50000x256_1_0_0_1_n_n_wf : DotDims.WF S50000x128 S128x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Chain.lean ====
/-
  The graph part of a graph-convolution layer, as functions of the edge list.

  From the destination row `dst` of the edge list: every node's degree (the number of edges that end in it, plus
  one for the self loop), its inverse square root `dinv`, and per edge the weight dinv(src) · dinv(dst).  The
  aggregation of a feature matrix h gathers row src(e) of h for every edge e, scales it by the edge's weight and
  adds it into row dst(e) of a zero matrix.  An index read from the edge list is first wrapped (a negative index
  counts from the end) before it is used to gather.
-/
import proofs.«153735_j50491635531994_1_alg».proof.KernelIdeal

noncomputable section

namespace Cert.KernelIdeal.Chain

open Idealize.ShloMosaic Cert.KernelIdeal

variable {F : FTy → Type} [FloatOps F] [Facts₀]
open Facts₀

/-- Row 0 of the edge list: the source node of every edge. -/
def srcOf (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- Row 1 of the edge list: the destination node of every edge. -/
def dstOf (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- A node index made ready for a gather: a negative index has the node count added, and the vector becomes a
    one-column matrix of start indices. -/
def wrapIdx (v : (⟨S800000, .i32⟩ : BufTy).Contents (Elt F)) : (⟨S800000x1, .i32⟩ : BufTy).Contents (Elt F) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The inverse square root of every node's degree (edges ending in the node, plus one). -/
def dinvOf (dst : (⟨S800000, .i32⟩ : BufTy).Contents (Elt F)) : (⟨S50000, .f32⟩ : BufTy).Contents (Elt F) :=
  Host.rsqrt (addf
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32)))

/-- The weight of every edge: dinv at its source times dinv at its destination. -/
def normOf (src dst : (⟨S800000, .i32⟩ : BufTy).Contents (Elt F)) : (⟨S800000, .f32⟩ : BufTy).Contents (Elt F) :=
  mulf (Host.gather gather_S50000_S800000x1_S800000_n_0_n_n_0_1_1 (dinvOf (F := F) dst) (wrapIdx (F := F) src))
    (Host.gather gather_S50000_S800000x1_S800000_n_0_n_n_0_1_1 (dinvOf (F := F) dst) (wrapIdx (F := F) dst))

/-- The self-loop weight of every node: dinv squared. -/
def dinv2Of (dst : (⟨S800000, .i32⟩ : BufTy).Contents (Elt F)) : (⟨S50000, .f32⟩ : BufTy).Contents (Elt F) :=
  mulf (dinvOf (F := F) dst) (dinvOf (F := F) dst)

/-- Aggregation of a 256-column feature matrix over the edges. -/
def agg256 (h : (⟨S50000x256, .f32⟩ : BufTy).Contents (Elt F)) (src dst : (⟨S800000, .i32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 dst)
    (mulf (Host.gather gather_S50000x256_S800000x1_S800000x256_1_0_n_n_0_1_1256 h (wrapIdx (F := F) src))
      (broadcastInDim S800000x256 ![0, 1] bcast_S800000x1_S800000x256_0_1
        (broadcastInDim S800000x1 ![0] bcast_S800000_S800000x1_0 (normOf (F := F) src dst))))

/-- Aggregation of a 128-column feature matrix over the edges. -/
def agg128 (h : (⟨S50000x128, .f32⟩ : BufTy).Contents (Elt F)) (src dst : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (Host.gather gather_S50000x128_S800000x1_S800000x128_1_0_n_n_0_1_1128 h (wrapIdx (F := F) src))
      (broadcastInDim S800000x128 ![0, 1] bcast_S800000x1_S800000x128_0_1
        (broadcastInDim S800000x1 ![0] bcast_S800000_S800000x1_0 (normOf (F := F) src dst))))

end Cert.KernelIdeal.Chain

end
-- ==== Proof.Spec.lean ====
/-
  The two dense pieces of a graph-convolution layer, as whole-array functions on the extended reals.

  * `mmul x w` is the matrix product: entry (p, q) is the finite sum over the shared axis of x(p, k) · w(k, q).
  * `selfBias agg h d b` is the layer's last step: entry (p, q) is (agg(p, q) + h(p, q) · d(p)) + b(q), where
    d is the per-node self-loop weight (given as a one-column matrix) and b the bias (given as a one-row matrix).
  * `reluZ v` is the entrywise maximum with zero.
-/
import Idealize.ShloMosaic.PureOps.Ideal
import Idealize.ShloMosaic.Lib.ValueIdx

noncomputable section

namespace Cert.GcnSpec

open Idealize.ShloMosaic Idealize.ShloMosaic.ValueIdx

/-- The matrix product: entry (p, q) is Σ_k x(p, k) · w(k, q). -/
def mmul {M K N : Nat} (x : (⟨2, ![M, K]⟩ : Shape).Idx → EReal) (w : (⟨2, ![K, N]⟩ : Shape).Idx → EReal) :
    (⟨2, ![M, N]⟩ : Shape).Idx → EReal :=
  fun j => ∑ k : Fin K, x (ix2 (j 0) k) * w (ix2 k (j 1))

/-- Self-loop term and bias: entry (p, q) is (agg(p, q) + h(p, q) · d(p, 0)) + b(0, q). -/
def selfBias {M N : Nat} (agg h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun j => (agg j + h j * d (ix2 (j 0) (0 : Fin 1))) + b (ix2 (0 : Fin 1) (j 1))

/-- Entrywise maximum with the float zero. -/
def reluZ {M N : Nat} (v : (⟨2, ![M, N]⟩ : Shape).Idx → EReal) : (⟨2, ![M, N]⟩ : Shape).Idx → EReal :=
  fun j => max (v j) (Ideal.ofBits .f32 0x00000000#32)

theorem mmul_apply {M K N : Nat} (x : (⟨2, ![M, K]⟩ : Shape).Idx → EReal) (w : (⟨2, ![K, N]⟩ : Shape).Idx → EReal)
    (j : (⟨2, ![M, N]⟩ : Shape).Idx) : mmul x w j = ∑ k : Fin K, x (ix2 (j 0) k) * w (ix2 k (j 1)) := rfl

theorem selfBias_apply {M N : Nat} (agg h : (⟨2, ![M, N]⟩ : Shape).Idx → EReal) (d : (⟨2, ![M, 1]⟩ : Shape).Idx → EReal)
    (b : (⟨2, ![1, N]⟩ : Shape).Idx → EReal) (j : (⟨2, ![M, N]⟩ : Shape).Idx) :
    selfBias agg h d b j = (agg j + h j * d (ix2 (j 0) (0 : Fin 1))) + b (ix2 (0 : Fin 1) (j 1)) := rfl

theorem reluZ_apply {M N : Nat} (v : (⟨2, ![M, N]⟩ : Shape).Idx → EReal) (j : (⟨2, ![M, N]⟩ : Shape).Idx) :
    reluZ v j = max (v j) (Ideal.ofBits .f32 0x00000000#32) := rfl

end Cert.GcnSpec

end
-- ==== Proof.Layers.lean ====
/-
  The two-layer graph convolution as one function of its six arguments, on the extended reals.

  A layer takes node features a, a weight matrix W and a bias b.  With h = a · W (the matrix product), it returns,
  entry by entry,  (agg(h) + h · dinv²) + b,  where agg(h) gathers every edge's source row of h, scales it by
  dinv(src) · dinv(dst) and adds it into the edge's destination row, and dinv² is the self-loop weight of the row's
  node.  The first layer is followed by the maximum with zero; the second is not.
-/
import proofs.«153735_j50491635531994_1_alg».proof.Proof.Chain
import proofs.«153735_j50491635531994_1_alg».proof.Proof.Spec

noncomputable section

namespace Cert.KernelIdeal.Layers

open Idealize.ShloMosaic Cert.KernelIdeal Cert.KernelIdeal.Chain Cert.GcnSpec

variable [Facts₀]
open Facts₀

/-- The first layer, with its maximum with zero: 128 input features to 256 hidden features. -/
def layer1 (x : (⟨S50000x128, .f32⟩ : BufTy).Contents (Elt Ideal)) (ei : (⟨S2x800000, .i32⟩ : BufTy).Contents (Elt Ideal))
    (w : (⟨S128x256, .f32⟩ : BufTy).Contents (Elt Ideal)) (b : (⟨S256, .f32⟩ : BufTy).Contents (Elt Ideal)) : S50000x256.Idx → EReal :=
  reluZ (selfBias (agg256 (F := Ideal) (mmul x w) (srcOf (F := Ideal) ei) (dstOf (F := Ideal) ei)) (mmul x w)
    (shapeCast S50000x1 (dinv2Of (F := Ideal) (dstOf (F := Ideal) ei)) shapeCasts_S50000_S50000x1)
    (shapeCast S1x256 b shapeCasts_S256_S1x256))

/-- The second layer: 256 hidden features to 128 output features. -/
def layer2 (a : S50000x256.Idx → EReal) (ei : (⟨S2x800000, .i32⟩ : BufTy).Contents (Elt Ideal))
    (w : (⟨S256x128, .f32⟩ : BufTy).Contents (Elt Ideal)) (b : (⟨S128, .f32⟩ : BufTy).Contents (Elt Ideal)) : S50000x128.Idx → EReal :=
  selfBias (agg128 (F := Ideal) (mmul a w) (srcOf (F := Ideal) ei) (dstOf (F := Ideal) ei)) (mmul a w)
    (shapeCast S50000x1 (dinv2Of (F := Ideal) (dstOf (F := Ideal) ei)) shapeCasts_S50000_S50000x1)
    (shapeCast S1x128 b shapeCasts_S128_S1x128)

/-- Both layers. -/
def gcn (x : (⟨S50000x128, .f32⟩ : BufTy).Contents (Elt Ideal)) (ei : (⟨S2x800000, .i32⟩ : BufTy).Contents (Elt Ideal))
    (w1 : (⟨S128x256, .f32⟩ : BufTy).Contents (Elt Ideal)) (b1 : (⟨S256, .f32⟩ : BufTy).Contents (Elt Ideal))
    (w2 : (⟨S256x128, .f32⟩ : BufTy).Contents (Elt Ideal)) (b2 : (⟨S128, .f32⟩ : BufTy).Contents (Elt Ideal)) : S50000x128.Idx → EReal :=
  layer2 (layer1 x ei w1 b1) ei w2 b2

end Cert.KernelIdeal.Layers

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Region0.lean ====
import proofs.«153735_j50491635531994_1_alg».proof.Proof.Gen.KernelIdeal.Frame
import proofs.«153735_j50491635531994_1_alg».proof.Proof.Spec
import proofs.«153735_j50491635531994_1_alg».proof.Proof.LibPlainDot
import Idealize.ShloMosaic.Lib.Pipeline.Value
import Idealize.ShloMosaic.Lib.ValueIdx

set_option maxRecDepth 16384

noncomputable section

namespace Cert.KernelIdeal.Region0

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The left operand array as the region finds it, at its literal type. -/
abbrev lhsArr (c : Dev nD) : S50000x128.Idx → EReal := V c main_v4
/-- The right operand array as the region finds it, at its literal type. -/
abbrev rhsArr (c : Dev nD) : S128x256.Idx → EReal := V c main_v5

theorem hz : (![0, 0] : Fin 2 → Nat) = fun _ => 0 := funext fun a => by fin_cases a <;> rfl

theorem pay_apply (x0 : Vec Ideal S2000x128 .bf16) (x1 : Vec Ideal S128x256 .bf16) (j : S2000x256.Idx) :
    k0_pay1 x0 x1 j = ∑ k : Fin 128, x0 (ix2 (j 0) k) * x1 (ix2 k (j 1)) := by
  unfold k0_pay1
  rw [shapeCast_self, shapeCast_self]
  exact Cert.LibPlainDot.matmul_plain_zero (M := 2000) (K := 128) (N := 256) none x0 x1 j

/-- The block index maps over the grid: the row block of both the left operand and the output at point t is t,
    every other block index is 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

theorem flushed_eq (c : Dev nD) (t : Fin cfg0.N) :
    (dat0 V c).flushed 2 t = ((cfg0.win 2).blk t).view.read (Elt Ideal) (Cert.GcnSpec.mmul (V c main_v4) (V c main_v5)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x256) hz]
  funext j
  show k0_pay1 (iblk0 V c 0 t) (iblk0 V c 1 t) j
      = Cert.GcnSpec.mmul (V c main_v4) (V c main_v5) (((cfg0.win 2).blk t).view.emb j)
  refine (pay_apply (iblk0 V c 0 t) (iblk0 V c 1 t) j).trans ?_
  refine (Finset.sum_congr rfl fun k _ => ?_).trans (Cert.GcnSpec.mmul_apply (V c main_v4) (V c main_v5) _).symm
  obtain ⟨e0, e1, e2, e3, e4, e5⟩ := idx_facts t
  have hl : ((cfg0.win 0).blk t).view.emb (ix2 (j 0) k) = ix2 (((cfg0.win 2).blk t).view.emb j 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have hr : ((cfg0.win 1).blk t).view.emb (ix2 k (j 1)) = ix2 k (((cfg0.win 2).blk t).view.emb j 1) := by
    funext a; apply Fin.ext
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega
  exact congrArg₂ (· * ·) (congrArg (lhsArr V c) hl) (congrArg (rhsArr V c) hr)

/-- An index of the product array lies in point t's output block iff each coordinate lies in the block's range. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v6).slice (win0_2.rect t)).set ↔ _
  rw [View.set_slice_whole, Rect.mem_set_unit]
  exact Iff.rfl

/-- The 25 row blocks of 2000 rows tile the 50000 rows: row r lies in block r / 2000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hlt : (i 0).val / 2000 < cfg0.N := by rw [show cfg0.N = 25 from N_0]; omega
  obtain ⟨e0, e1, e2, e3, e4, e5⟩ := idx_facts ⟨(i 0).val / 2000, hlt⟩
  have e5' : win0_2.index ⟨(i 0).val / 2000, hlt⟩ (0 : Fin 2) = (i 0).val / 2000 := e5
  refine ⟨⟨(i 0).val / 2000, hlt⟩, flush0_2 _, ?_⟩
  rw [mem_blk]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    omega
  | ⟨1, _⟩ =>
    show win0_2.index ⟨(i 0).val / 2000, hlt⟩ (1 : Fin 2) * 256 ≤ (i 1).val ∧ (i 1).val < win0_2.index ⟨(i 0).val / 2000, hlt⟩ (1 : Fin 2) * 256 + 256
    omega

/-- After the region the product array holds the matrix product of the two operand arrays as the region found them. -/
theorem final0 (c : Dev nD) : (dat0 V c).arrAt 2 cfg0.N = Cert.GcnSpec.mmul (V c main_v4) (V c main_v5) :=
  (dat0 V c).arrAt_eq_of_cover 2 _ (fun t _ => flushed_eq V c t) cover

end Cert.KernelIdeal.Region0

end
-- ==== Proof.LibBroadcast2.lean ====
/-
  One-column and one-row matrices spread over a matrix, read at an index.

  A per-row weight kept as an R × 1 matrix and spread across the columns reads, at (p, q), the weight of row p; a per-column
  bias kept as a 1 × C matrix and spread down the rows reads, at (p, q), the bias of column q.  The same two facts for a
  vector that is first made a one-column (or one-row) matrix, by a reshape or by the host's `broadcast_in_dim`.
-/
import Idealize.ShloMosaic.Lib.ValueIdx
import Idealize.ShloMosaic.Lib.Pipeline.Value

noncomputable section

namespace Cert.LibBroadcast2

open Idealize.ShloMosaic Idealize.ShloMosaic.ValueIdx

variable {α : Type} {R C : Nat}

/-- An R × 1 matrix broadcast across C columns reads, at (p, q), its entry (p, 0). -/
theorem colBroadcastTo_apply (v : (⟨2, ![R, 1]⟩ : Shape).Idx → α) (h : (⟨2, ![R, 1]⟩ : Shape).Broadcasts ⟨2, ![R, C]⟩)
    (p : Fin R) (q : Fin C) : broadcastTo ⟨2, ![R, C]⟩ v h (ix2 p q) = v (ix2 p (0 : Fin 1)) :=
  broadcastTo_apply v h (ix2 p q) (ix2 p (0 : Fin 1)) (fun a => by
    match a with
    | ⟨0, _⟩ =>
      show p.val = if R = 1 then 0 else p.val
      split
      · have := p.isLt; omega
      · rfl
    | ⟨1, _⟩ => show (0 : Nat) = if (1 : Nat) = 1 then 0 else _; rw [if_pos rfl])

/-- A 1 × C matrix broadcast down R rows reads, at (p, q), its entry (0, q). -/
theorem rowBroadcastTo_apply (v : (⟨2, ![1, C]⟩ : Shape).Idx → α) (h : (⟨2, ![1, C]⟩ : Shape).Broadcasts ⟨2, ![R, C]⟩)
    (p : Fin R) (q : Fin C) : broadcastTo ⟨2, ![R, C]⟩ v h (ix2 p q) = v (ix2 (0 : Fin 1) q) :=
  broadcastTo_apply v h (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)

/-- A length-R vector reshaped to an R × 1 matrix reads, at (p, 0), the vector at p. -/
theorem colReshape_apply (v : (⟨1, ![R]⟩ : Shape).Idx → α) (h : (⟨1, ![R]⟩ : Shape).ShapeCasts ⟨2, ![R, 1]⟩) (p : Fin R) :
    shapeCast ⟨2, ![R, 1]⟩ v h (ix2 p (0 : Fin 1)) = v (ix1 p) :=
  shapeCast_apply v h (ix2 p (0 : Fin 1)) (ix1 p) (by
    rw [Shape.rowMajor_val_one, Shape.rowMajor_val_two]
    show p.val = p.val * 1 + (0 : Nat)
    omega)

/-- A length-C vector reshaped to a 1 × C matrix reads, at (0, q), the vector at q. -/
theorem rowReshape_apply (v : (⟨1, ![C]⟩ : Shape).Idx → α) (h : (⟨1, ![C]⟩ : Shape).ShapeCasts ⟨2, ![1, C]⟩) (q : Fin C) :
    shapeCast ⟨2, ![1, C]⟩ v h (ix2 (0 : Fin 1) q) = v (ix1 q) :=
  shapeCast_apply v h (ix2 (0 : Fin 1) q) (ix1 q) (by
    rw [Shape.rowMajor_val_one, Shape.rowMajor_val_two]
    show q.val = (0 : Nat) * C + q.val
    omega)

/-- The host's form of a per-row weight: a length-R vector laid along the first axis by two `broadcast_in_dim`s reads,
    at (p, q), the vector at p. -/
theorem colBroadcastInDim_apply (v : (⟨1, ![R]⟩ : Shape).Idx → α)
    (h1 : (⟨1, ![R]⟩ : Shape).BroadcastsInDim ⟨2, ![R, 1]⟩ ![0]) (h2 : (⟨2, ![R, 1]⟩ : Shape).BroadcastsInDim ⟨2, ![R, C]⟩ ![0, 1])
    (p : Fin R) (q : Fin C) :
    broadcastInDim ⟨2, ![R, C]⟩ ![0, 1] h2 (broadcastInDim ⟨2, ![R, 1]⟩ ![0] h1 v) (ix2 p q) = v (ix1 p) := by
  rw [broadcastInDim_apply ![0, 1] h2 _ (ix2 p q) (ix2 p (0 : Fin 1)) (fun a => by
    match a with
    | ⟨0, _⟩ =>
      show p.val = if R = 1 then 0 else p.val
      split
      · have := p.isLt; omega
      · rfl
    | ⟨1, _⟩ => show (0 : Nat) = if (1 : Nat) = 1 then 0 else _; rw [if_pos rfl])]
  exact broadcastInDim_apply ![0] h1 v (ix2 p (0 : Fin 1)) (ix1 p) (fun a => by
    match a with
    | ⟨0, _⟩ =>
      show p.val = if R = 1 then 0 else p.val
      split
      · have := p.isLt; omega
      · rfl)

end Cert.LibBroadcast2

end
-- ==== Proof.Region1.lean ====
import proofs.«153735_j50491635531994_1_alg».proof.Proof.Gen.KernelIdeal.Frame
import proofs.«153735_j50491635531994_1_alg».proof.Proof.Spec
import proofs.«153735_j50491635531994_1_alg».proof.Proof.LibBroadcast2
import Idealize.ShloMosaic.Lib.Pipeline.Value
import Idealize.ShloMosaic.Lib.ValueIdx

set_option maxRecDepth 16384

noncomputable section

namespace Cert.KernelIdeal.Region1

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The aggregated features as the region finds them, at their literal type. -/
abbrev aggArr (c : Dev nD) : S50000x256.Idx → EReal := V c main_v41
/-- The dense features as the region finds them. -/
abbrev featArr (c : Dev nD) : S50000x256.Idx → EReal := V c main_v6
/-- The per-node self-loop weights, a one-column matrix. -/
abbrev loopArr (c : Dev nD) : S50000x1.Idx → EReal := V c main_v43
/-- The bias, a one-row matrix. -/
abbrev biasArr (c : Dev nD) : S1x256.Idx → EReal := V c main_v44

theorem hz : (![0, 0] : Fin 2 → Nat) = fun _ => 0 := funext fun a => by fin_cases a <;> rfl

/-- The body's stored value at (p, q): the maximum with zero of (agg + feat · loop(p)) + bias(q). -/
theorem pay_apply (x0 x1 : Vec Ideal S2000x256 .f32) (x2 : Vec Ideal S2000x1 .f32) (x3 : Vec Ideal S1x256 .f32)
    (p : Fin 2000) (q : Fin 256) :
    k1_pay1 x0 x1 x2 x3 (ix2 p q)
      = max ((x0 (ix2 p q) + x1 (ix2 p q) * x2 (ix2 p (0 : Fin 1))) + x3 (ix2 (0 : Fin 1) q)) (Ideal.ofBits .f32 0x00000000#32) := by
  unfold k1_pay1
  rw [shapeCast_self, shapeCast_self, shapeCast_self, shapeCast_self]
  show max ((x0 (ix2 p q) + x1 (ix2 p q) * broadcastTo S2000x256 x2 broadcasts_S2000x1_S2000x256 (ix2 p q))
      + broadcastTo S2000x256 x3 broadcasts_S1x256_S2000x256 (ix2 p q)) _ = _
  rw [Cert.LibBroadcast2.colBroadcastTo_apply, Cert.LibBroadcast2.rowBroadcastTo_apply]
  rfl

/-- The block index maps over the grid: at point t every row-blocked window is at row block t, and every other block
    index is 0. -/
theorem idx_facts : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

theorem flushed_eq (c : Dev nD) (t : Fin cfg1.N) :
    (dat1 V c).flushed 4 t = ((cfg1.win 4).blk t).view.read (Elt Ideal)
      (Cert.GcnSpec.reluZ (Cert.GcnSpec.selfBias (V c main_v41) (V c main_v6) (V c main_v43) (V c main_v44))) := by
  show (cfg1.win 4).cut (grid1.coords t) ((dat1 V c).after 4 t) = _
  rw [after1_4]
  unfold out1_4
  rw [View.canon_unit_zero hz]
  simp only [View.ld_unit_zero (S := S2000x256) hz, View.ld_unit_zero (S := S2000x1) hz, View.ld_unit_zero (S := S1x256) hz]
  funext j
  obtain ⟨p, q, rfl⟩ : ∃ (p : Fin 2000) (q : Fin 256), j = ix2 p q := ⟨j 0, j 1, eq_ix2 j⟩
  show k1_pay1 (iblk1 V c 0 t) (iblk1 V c 1 t) (iblk1 V c 2 t) (iblk1 V c 3 t) (ix2 p q)
      = Cert.GcnSpec.reluZ (Cert.GcnSpec.selfBias (V c main_v41) (V c main_v6) (V c main_v43) (V c main_v44))
          (((cfg1.win 4).blk t).view.emb (ix2 p q))
  refine (pay_apply (iblk1 V c 0 t) (iblk1 V c 1 t) (iblk1 V c 2 t) (iblk1 V c 3 t) p q).trans ?_
  obtain ⟨e0, e1, e2, e3, e4, e5, e6, e7, e8, e9⟩ := idx_facts t
  have h0 : ((cfg1.win 0).blk t).view.emb (ix2 p q) = ((cfg1.win 4).blk t).view.emb (ix2 p q) := by
    funext a; apply Fin.ext
    match a with
    | ⟨0, _⟩ => show win1_0.index t (0 : Fin 2) * 2000 + 1 * p.val = win1_4.index t (0 : Fin 2) * 2000 + 1 * p.val; omega
    | ⟨1, _⟩ => show win1_0.index t (1 : Fin 2) * 256 + 1 * q.val = win1_4.index t (1 : Fin 2) * 256 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 2000 + 1 * p.val = win1_4.index t (0 : Fin 2) * 2000 + 1 * p.val; omega
    | ⟨1, _⟩ => show win1_1.index t (1 : Fin 2) * 256 + 1 * q.val = win1_4.index t (1 : Fin 2) * 256 + 1 * q.val; omega
  have h2 : ((cfg1.win 2).blk t).view.emb (ix2 p (0 : Fin 1))
      = ix2 (((cfg1.win 4).blk t).view.emb (ix2 p q) 0) (0 : Fin 1) := by
    funext a; apply Fin.ext
    match a with
    | ⟨0, _⟩ => show win1_2.index t (0 : Fin 2) * 2000 + 1 * p.val = win1_4.index t (0 : Fin 2) * 2000 + 1 * p.val; omega
    | ⟨1, _⟩ => show win1_2.index t (1 : Fin 2) * 1 + 1 * 0 = 0; omega
  have h3 : ((cfg1.win 3).blk t).view.emb (ix2 (0 : Fin 1) q)
      = ix2 (0 : Fin 1) (((cfg1.win 4).blk t).view.emb (ix2 p q) 1) := by
    funext a; apply Fin.ext
    match a with
    | ⟨0, _⟩ => show win1_3.index t (0 : Fin 2) * 1 + 1 * 0 = 0; omega
    | ⟨1, _⟩ => show win1_3.index t (1 : Fin 2) * 256 + 1 * q.val = win1_4.index t (1 : Fin 2) * 256 + 1 * q.val; omega
  exact congrArg₂ max
    (congrArg₂ (· + ·)
      (congrArg₂ (· + ·) (congrArg (aggArr V c) h0)
        (congrArg₂ (· * ·) (congrArg (featArr V c) h1) (congrArg (loopArr V c) h2)))
      (congrArg (biasArr V c) h3))
    rfl

/-- An index of the output array lies in point t's output block iff each coordinate lies in the block's range. -/
theorem mem_blk (t : Fin cfg1.N) (i : S50000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v45).slice (win1_4.rect t)).set ↔ _
  rw [View.set_slice_whole, Rect.mem_set_unit]
  exact Iff.rfl

/-- The 25 row blocks of 2000 rows tile the 50000 rows: row r lies in block r / 2000. -/
theorem cover (i : S50000x256.Idx) : ∃ t : Fin cfg1.N, (cfg1.win 4).flush t = true ∧ i ∈ ((cfg1.win 4).blk t).view.set := by
  have hi0 : (i 0).val < 50000 := (i 0).isLt
  have hi1 : (i 1).val < 256 := (i 1).isLt
  have hlt : (i 0).val / 2000 < cfg1.N := by rw [show cfg1.N = 25 from N_1]; omega
  obtain ⟨e0, e1, -⟩ := idx_facts ⟨(i 0).val / 2000, hlt⟩
  have e0' : win1_4.index ⟨(i 0).val / 2000, hlt⟩ (0 : Fin 2) = (i 0).val / 2000 := e0
  refine ⟨⟨(i 0).val / 2000, hlt⟩, flush1_4 _, ?_⟩
  rw [mem_blk]
  intro a
  match a with
  | ⟨0, _⟩ =>
    show win1_4.index ⟨(i 0).val / 2000, hlt⟩ (0 : Fin 2) * 2000 ≤ (i 0).val ∧ (i 0).val < win1_4.index ⟨(i 0).val / 2000, hlt⟩ (0 : Fin 2) * 2000 + 2000
    omega
  | ⟨1, _⟩ =>
    show win1_4.index ⟨(i 0).val / 2000, hlt⟩ (1 : Fin 2) * 256 ≤ (i 1).val ∧ (i 1).val < win1_4.index ⟨(i 0).val / 2000, hlt⟩ (1 : Fin 2) * 256 + 256
    omega

/-- After the region the output array holds, entry by entry, the maximum with zero of (agg + feat · loop) + bias of the
    four operand arrays as the region found them. -/
theorem final1 (c : Dev nD) : (dat1 V c).arrAt 4 cfg1.N
    = Cert.GcnSpec.reluZ (Cert.GcnSpec.selfBias (V c main_v41) (V c main_v6) (V c main_v43) (V c main_v44)) :=
  (dat1 V c).arrAt_eq_of_cover 4 _ (fun t _ => flushed_eq V c t) cover

end Cert.KernelIdeal.Region1

end
-- ==== Proof.Region2.lean ====
import proofs.«153735_j50491635531994_1_alg».proof.Proof.Gen.KernelIdeal.Frame
import proofs.«153735_j50491635531994_1_alg».proof.Proof.Spec
import proofs.«153735_j50491635531994_1_alg».proof.Proof.LibPlainDot
import Idealize.ShloMosaic.Lib.Pipeline.Value
import Idealize.ShloMosaic.Lib.ValueIdx

set_option maxRecDepth 16384

noncomputable section

namespace Cert.KernelIdeal.Region2

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The left operand array as the region finds it, at its literal type. -/
abbrev lhsArr (c : Dev nD) : S50000x256.Idx → EReal := V c main_v46
/-- The right operand array as the region finds it, at its literal type. -/
abbrev rhsArr (c : Dev nD) : S256x128.Idx → EReal := V c main_v47

theorem hz : (![0, 0] : Fin 2 → Nat) = fun _ => 0 := funext fun a => by fin_cases a <;> rfl

theorem pay_apply (x0 : Vec Ideal S2000x256 .bf16) (x1 : Vec Ideal S256x128 .bf16) (j : S2000x128.Idx) :
    k2_pay1 x0 x1 j = ∑ k : Fin 256, x0 (ix2 (j 0) k) * x1 (ix2 k (j 1)) := by
  unfold k2_pay1
  rw [shapeCast_self, shapeCast_self]
  exact Cert.LibPlainDot.matmul_plain_zero (M := 2000) (K := 256) (N := 128) none x0 x1 j

/-- The block index maps over the grid: the row block of both the left operand and the output at point t is t,
    every other block index is 0. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

theorem flushed_eq (c : Dev nD) (t : Fin cfg2.N) :
    (dat2 V c).flushed 2 t = ((cfg2.win 2).blk t).view.read (Elt Ideal) (Cert.GcnSpec.mmul (V c main_v46) (V c main_v47)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x128) hz]
  funext j
  show k2_pay1 (iblk2 V c 0 t) (iblk2 V c 1 t) j
      = Cert.GcnSpec.mmul (V c main_v46) (V c main_v47) (((cfg2.win 2).blk t).view.emb j)
  refine (pay_apply (iblk2 V c 0 t) (iblk2 V c 1 t) j).trans ?_
  refine (Finset.sum_congr rfl fun k _ => ?_).trans (Cert.GcnSpec.mmul_apply (V c main_v46) (V c main_v47) _).symm
  obtain ⟨e0, e1, e2, e3, e4, e5⟩ := idx_facts t
  have hl : ((cfg2.win 0).blk t).view.emb (ix2 (j 0) k) = ix2 (((cfg2.win 2).blk t).view.emb j 0) k := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * k.val = k.val; omega
  have hr : ((cfg2.win 1).blk t).view.emb (ix2 k (j 1)) = ix2 k (((cfg2.win 2).blk t).view.emb j 1) := by
    funext a; apply Fin.ext
    match a with
    | ⟨0, _⟩ => show win2_1.index t (0 : Fin 2) * 256 + 1 * k.val = k.val; omega
    | ⟨1, _⟩ => show win2_1.index t (1 : Fin 2) * 128 + 1 * (j 1).val = win2_2.index t (1 : Fin 2) * 128 + 1 * (j 1).val; omega
  exact congrArg₂ (· * ·) (congrArg (lhsArr V c) hl) (congrArg (rhsArr V c) hr)

/-- An index of the product array lies in point t's output block iff each coordinate lies in the block's range. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v48).slice (win2_2.rect t)).set ↔ _
  rw [View.set_slice_whole, Rect.mem_set_unit]
  exact Iff.rfl

/-- The 25 row blocks of 2000 rows tile the 50000 rows: row r lies in block r / 2000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hlt : (i 0).val / 2000 < cfg2.N := by rw [show cfg2.N = 25 from N_2]; omega
  obtain ⟨e0, e1, e2, e3, e4, e5⟩ := idx_facts ⟨(i 0).val / 2000, hlt⟩
  have e5' : win2_2.index ⟨(i 0).val / 2000, hlt⟩ (0 : Fin 2) = (i 0).val / 2000 := e5
  refine ⟨⟨(i 0).val / 2000, hlt⟩, flush2_2 _, ?_⟩
  rw [mem_blk]
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    omega
  | ⟨1, _⟩ =>
    show win2_2.index ⟨(i 0).val / 2000, hlt⟩ (1 : Fin 2) * 128 ≤ (i 1).val ∧ (i 1).val < win2_2.index ⟨(i 0).val / 2000, hlt⟩ (1 : Fin 2) * 128 + 128
    omega

/-- After the region the product array holds the matrix product of the two operand arrays as the region found them. -/
theorem final2 (c : Dev nD) : (dat2 V c).arrAt 2 cfg2.N = Cert.GcnSpec.mmul (V c main_v46) (V c main_v47) :=
  (dat2 V c).arrAt_eq_of_cover 2 _ (fun t _ => flushed_eq V c t) cover

end Cert.KernelIdeal.Region2

end
-- ==== Proof.Region3.lean ====
import proofs.«153735_j50491635531994_1_alg».proof.Proof.Gen.KernelIdeal.Frame
import proofs.«153735_j50491635531994_1_alg».proof.Proof.Spec
import proofs.«153735_j50491635531994_1_alg».proof.Proof.LibBroadcast2
import Idealize.ShloMosaic.Lib.Pipeline.Value
import Idealize.ShloMosaic.Lib.ValueIdx

set_option maxRecDepth 16384

noncomputable section

namespace Cert.KernelIdeal.Region3

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The aggregated features as the region finds them, at their literal type. -/
abbrev aggArr (c : Dev nD) : S50000x128.Idx → EReal := V c main_v83
/-- The dense features as the region finds them. -/
abbrev featArr (c : Dev nD) : S50000x128.Idx → EReal := V c main_v48
/-- The per-node self-loop weights, a one-column matrix. -/
abbrev loopArr (c : Dev nD) : S50000x1.Idx → EReal := V c main_v85
/-- The bias, a one-row matrix. -/
abbrev biasArr (c : Dev nD) : S1x128.Idx → EReal := V c main_v86

theorem hz : (![0, 0] : Fin 2 → Nat) = fun _ => 0 := funext fun a => by fin_cases a <;> rfl

/-- The body's stored value at (p, q): (agg + feat · loop(p)) + bias(q). -/
theorem pay_apply (x0 x1 : Vec Ideal S2000x128 .f32) (x2 : Vec Ideal S2000x1 .f32) (x3 : Vec Ideal S1x128 .f32)
    (p : Fin 2000) (q : Fin 128) :
    k3_pay1 x0 x1 x2 x3 (ix2 p q)
      = (x0 (ix2 p q) + x1 (ix2 p q) * x2 (ix2 p (0 : Fin 1))) + x3 (ix2 (0 : Fin 1) q) := by
  unfold k3_pay1
  rw [shapeCast_self, shapeCast_self, shapeCast_self, shapeCast_self]
  show (x0 (ix2 p q) + x1 (ix2 p q) * broadcastTo S2000x128 x2 broadcasts_S2000x1_S2000x128 (ix2 p q))
      + broadcastTo S2000x128 x3 broadcasts_S1x128_S2000x128 (ix2 p q) = _
  rw [Cert.LibBroadcast2.colBroadcastTo_apply, Cert.LibBroadcast2.rowBroadcastTo_apply]

/-- The block index maps over the grid: at point t every row-blocked window is at row block t, and every other block
    index is 0. -/
theorem idx_facts : ∀ t : Fin cfg3.N, win3_4.index t (0 : Fin 2) = t.val ∧ win3_4.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0 :=
  (by decide +kernel : ∀ t : Fin grid3.N, _)

theorem flushed_eq (c : Dev nD) (t : Fin cfg3.N) :
    (dat3 V c).flushed 4 t = ((cfg3.win 4).blk t).view.read (Elt Ideal)
      (Cert.GcnSpec.selfBias (V c main_v83) (V c main_v48) (V c main_v85) (V c main_v86)) := by
  show (cfg3.win 4).cut (grid3.coords t) ((dat3 V c).after 4 t) = _
  rw [after3_4]
  unfold out3_4
  rw [View.canon_unit_zero hz]
  simp only [View.ld_unit_zero (S := S2000x128) hz, View.ld_unit_zero (S := S2000x1) hz, View.ld_unit_zero (S := S1x128) hz]
  funext j
  obtain ⟨p, q, rfl⟩ : ∃ (p : Fin 2000) (q : Fin 128), j = ix2 p q := ⟨j 0, j 1, eq_ix2 j⟩
  show k3_pay1 (iblk3 V c 0 t) (iblk3 V c 1 t) (iblk3 V c 2 t) (iblk3 V c 3 t) (ix2 p q)
      = Cert.GcnSpec.selfBias (V c main_v83) (V c main_v48) (V c main_v85) (V c main_v86)
          (((cfg3.win 4).blk t).view.emb (ix2 p q))
  refine (pay_apply (iblk3 V c 0 t) (iblk3 V c 1 t) (iblk3 V c 2 t) (iblk3 V c 3 t) p q).trans ?_
  obtain ⟨e0, e1, e2, e3, e4, e5, e6, e7, e8, e9⟩ := idx_facts t
  have h0 : ((cfg3.win 0).blk t).view.emb (ix2 p q) = ((cfg3.win 4).blk t).view.emb (ix2 p q) := by
    funext a; apply Fin.ext
    match a with
    | ⟨0, _⟩ => show win3_0.index t (0 : Fin 2) * 2000 + 1 * p.val = win3_4.index t (0 : Fin 2) * 2000 + 1 * p.val; omega
    | ⟨1, _⟩ => show win3_0.index t (1 : Fin 2) * 128 + 1 * q.val = win3_4.index t (1 : Fin 2) * 128 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 2000 + 1 * p.val = win3_4.index t (0 : Fin 2) * 2000 + 1 * p.val; omega
    | ⟨1, _⟩ => show win3_1.index t (1 : Fin 2) * 128 + 1 * q.val = win3_4.index t (1 : Fin 2) * 128 + 1 * q.val; omega
  have h2 : ((cfg3.win 2).blk t).view.emb (ix2 p (0 : Fin 1))
      = ix2 (((cfg3.win 4).blk t).view.emb (ix2 p q) 0) (0 : Fin 1) := by
    funext a; apply Fin.ext
    match a with
    | ⟨0, _⟩ => show win3_2.index t (0 : Fin 2) * 2000 + 1 * p.val = win3_4.index t (0 : Fin 2) * 2000 + 1 * p.val; omega
    | ⟨1, _⟩ => show win3_2.index t (1 : Fin 2) * 1 + 1 * 0 = 0; omega
  have h3 : ((cfg3.win 3).blk t).view.emb (ix2 (0 : Fin 1) q)
      = ix2 (0 : Fin 1) (((cfg3.win 4).blk t).view.emb (ix2 p q) 1) := by
    funext a; apply Fin.ext
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega
  exact congrArg₂ (· + ·)
    (congrArg₂ (· + ·) (congrArg (aggArr V c) h0)
      (congrArg₂ (· * ·) (congrArg (featArr V c) h1) (congrArg (loopArr V c) h2)))
    (congrArg (biasArr V c) h3)

/-- An index of the output array lies in point t's output block iff each coordinate lies in the block's range. -/
theorem mem_blk (t : Fin cfg3.N) (i : S50000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v87).slice (win3_4.rect t)).set ↔ _
  rw [View.set_slice_whole, Rect.mem_set_unit]
  exact Iff.rfl

/-- The 25 row blocks of 2000 rows tile the 50000 rows: row r lies in block r / 2000. -/
theorem cover (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  have hlt : (i 0).val / 2000 < cfg3.N := by rw [show cfg3.N = 25 from N_3]; omega
  obtain ⟨e0, e1, -⟩ := idx_facts ⟨(i 0).val / 2000, hlt⟩
  have e0' : win3_4.index ⟨(i 0).val / 2000, hlt⟩ (0 : Fin 2) = (i 0).val / 2000 := e0
  refine ⟨⟨(i 0).val / 2000, hlt⟩, flush3_4 _, ?_⟩
  rw [mem_blk]
  intro a
  match a with
  | ⟨0, _⟩ =>
    show win3_4.index ⟨(i 0).val / 2000, hlt⟩ (0 : Fin 2) * 2000 ≤ (i 0).val ∧ (i 0).val < win3_4.index ⟨(i 0).val / 2000, hlt⟩ (0 : Fin 2) * 2000 + 2000
    omega
  | ⟨1, _⟩ =>
    show win3_4.index ⟨(i 0).val / 2000, hlt⟩ (1 : Fin 2) * 128 ≤ (i 1).val ∧ (i 1).val < win3_4.index ⟨(i 0).val / 2000, hlt⟩ (1 : Fin 2) * 128 + 128
    omega

/-- After the region the output array holds, entry by entry, (agg + feat · loop) + bias of the four operand arrays as
    the region found them. -/
theorem final3 (c : Dev nD) : (dat3 V c).arrAt 4 cfg3.N
    = Cert.GcnSpec.selfBias (V c main_v83) (V c main_v48) (V c main_v85) (V c main_v86) :=
  (dat3 V c).arrAt_eq_of_cover 4 _ (fun t _ => flushed_eq V c t) cover

end Cert.KernelIdeal.Region3

end
-- ==== Proof.KValue.lean ====
/-
  What the kernel program leaves in its result array: the two-layer graph convolution `Layers.gcn` of its arguments.

  The program alternates host stretches and regions.  Read from the launch forward: the first stretch splits the
  edge list into its source and destination rows and narrows x and W1 (the identity on the extended reals); region 0
  leaves h1 = x · W1; the second stretch applies the shared graph chain to h1 and makes the self-loop weights a
  one-column and the bias a one-row matrix; region 1 leaves the first layer's output; then the same four steps once
  more for the second layer, without the maximum.  Buffers a stretch or a region does not write keep their contents.
-/
import proofs.«153735_j50491635531994_1_alg».proof.Proof.Gen.KernelIdeal.Frame
import proofs.«153735_j50491635531994_1_alg».proof.Proof.Chain
import proofs.«153735_j50491635531994_1_alg».proof.Proof.Spec
import proofs.«153735_j50491635531994_1_alg».proof.Proof.Layers
import proofs.«153735_j50491635531994_1_alg».proof.Proof.Region0
import proofs.«153735_j50491635531994_1_alg».proof.Proof.Region1
import proofs.«153735_j50491635531994_1_alg».proof.Proof.Region2
import proofs.«153735_j50491635531994_1_alg».proof.Proof.Region3
import Idealize.ShloMosaic.Lib.StableHlo.Run

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen Cert.KernelIdeal.Chain Cert.KernelIdeal.Layers Cert.GcnSpec

variable (m : (ℓ : Loc nD τ sig) → Buf (Elt Ideal) ℓ) (ρ : Dev nD → PrngReg)

/-! ## After the first host stretch -/

theorem W1_v1 (c : Dev nD) : W1 m ρ c (Proc.devRef .tc main_v1) = srcOf (F := Ideal) (m ((c : Thread nD τ).loc main_arg1)) := by
  show StableHlo.after hostOps0 (W0 m ρ c) (Proc.devRef .tc main_v1) = _
  after_results
  rfl

theorem W1_v3 (c : Dev nD) : W1 m ρ c (Proc.devRef .tc main_v3) = dstOf (F := Ideal) (m ((c : Thread nD τ).loc main_arg1)) := by
  show StableHlo.after hostOps0 (W0 m ρ c) (Proc.devRef .tc main_v3) = _
  after_results
  rfl

/-- Narrowing to bf16 is the identity on the extended reals. -/
theorem W1_v4 (c : Dev nD) : W1 m ρ c (Proc.devRef .tc main_v4) = ((m ((c : Thread nD τ).loc main_arg0)) : S50000x128.Idx → EReal) := by
  show StableHlo.after hostOps0 (W0 m ρ c) (Proc.devRef .tc main_v4) = _
  after_results
  rfl

theorem W1_v5 (c : Dev nD) : W1 m ρ c (Proc.devRef .tc main_v5) = ((m ((c : Thread nD τ).loc main_arg2)) : S128x256.Idx → EReal) := by
  show StableHlo.after hostOps0 (W0 m ρ c) (Proc.devRef .tc main_v5) = _
  after_results
  rfl

theorem W1_arg3 (c : Dev nD) : W1 m ρ c (Proc.devRef .tc main_arg3) = (m ((c : Thread nD τ).loc main_arg3)) := by
  show StableHlo.after hostOps0 (W0 m ρ c) (Proc.devRef .tc main_arg3) = _
  after_results

theorem W1_arg4 (c : Dev nD) : W1 m ρ c (Proc.devRef .tc main_arg4) = (m ((c : Thread nD τ).loc main_arg4)) := by
  show StableHlo.after hostOps0 (W0 m ρ c) (Proc.devRef .tc main_arg4) = _
  after_results

theorem W1_arg5 (c : Dev nD) : W1 m ρ c (Proc.devRef .tc main_arg5) = (m ((c : Thread nD τ).loc main_arg5)) := by
  show StableHlo.after hostOps0 (W0 m ρ c) (Proc.devRef .tc main_arg5) = _
  after_results

/-! ## After region 0: the first dense product -/

theorem W2_v6 (c : Dev nD) : W2 m ρ c (Proc.devRef .tc main_v6) = (mmul (M := 50000) (K := 128) (N := 256) (m ((c : Thread nD τ).loc main_arg0)) (m ((c : Thread nD τ).loc main_arg2))) := by
  refine (W2_arr m ρ c 2).trans ((Cert.KernelIdeal.Region0.final0 (V1 m ρ) c).trans ?_)
  exact congrArg₂ (mmul (M := 50000) (K := 128) (N := 256)) (W1_v4 m ρ c) (W1_v5 m ρ c)

theorem W2_v1 (c : Dev nD) : W2 m ρ c (Proc.devRef .tc main_v1) = srcOf (F := Ideal) (m ((c : Thread nD τ).loc main_arg1)) :=
  (W2_of_ne m ρ c main_v1 (by decide)).trans (W1_v1 m ρ c)

theorem W2_v3 (c : Dev nD) : W2 m ρ c (Proc.devRef .tc main_v3) = dstOf (F := Ideal) (m ((c : Thread nD τ).loc main_arg1)) :=
  (W2_of_ne m ρ c main_v3 (by decide)).trans (W1_v3 m ρ c)

theorem W2_arg3 (c : Dev nD) : W2 m ρ c (Proc.devRef .tc main_arg3) = (m ((c : Thread nD τ).loc main_arg3)) :=
  (W2_of_ne m ρ c main_arg3 (by decide)).trans (W1_arg3 m ρ c)

theorem W2_arg4 (c : Dev nD) : W2 m ρ c (Proc.devRef .tc main_arg4) = (m ((c : Thread nD τ).loc main_arg4)) :=
  (W2_of_ne m ρ c main_arg4 (by decide)).trans (W1_arg4 m ρ c)

theorem W2_arg5 (c : Dev nD) : W2 m ρ c (Proc.devRef .tc main_arg5) = (m ((c : Thread nD τ).loc main_arg5)) :=
  (W2_of_ne m ρ c main_arg5 (by decide)).trans (W1_arg5 m ρ c)

/-! ## After the second host stretch: the graph chain on the first product -/

set_option maxHeartbeats 8000000 in
theorem W3_v41 (c : Dev nD) : W3 m ρ c (Proc.devRef .tc main_v41) = agg256 (F := Ideal) (mmul (M := 50000) (K := 128) (N := 256) (m ((c : Thread nD τ).loc main_arg0)) (m ((c : Thread nD τ).loc main_arg2))) (srcOf (F := Ideal) (m ((c : Thread nD τ).loc main_arg1))) (dstOf (F := Ideal) (m ((c : Thread nD τ).loc main_arg1))) := by
  have h : W3 m ρ c (Proc.devRef .tc main_v41)
      = agg256 (F := Ideal) (W2 m ρ c (Proc.devRef .tc main_v6)) (W2 m ρ c (Proc.devRef .tc main_v1)) (W2 m ρ c (Proc.devRef .tc main_v3)) := by
    show StableHlo.after hostOps1 (W2 m ρ c) (Proc.devRef .tc main_v41) = _
    after_results_simp
    rfl
  rw [h, W2_v6, W2_v1, W2_v3]

set_option maxHeartbeats 8000000 in
theorem W3_v43 (c : Dev nD) : W3 m ρ c (Proc.devRef .tc main_v43)
    = shapeCast S50000x1 (dinv2Of (F := Ideal) (dstOf (F := Ideal) (m ((c : Thread nD τ).loc main_arg1)))) shapeCasts_S50000_S50000x1 := by
  have h : W3 m ρ c (Proc.devRef .tc main_v43)
      = shapeCast S50000x1 (dinv2Of (F := Ideal) (W2 m ρ c (Proc.devRef .tc main_v3))) shapeCasts_S50000_S50000x1 := by
    show StableHlo.after hostOps1 (W2 m ρ c) (Proc.devRef .tc main_v43) = _
    after_results_simp
    rfl
  rw [h, W2_v3]

set_option maxHeartbeats 8000000 in
theorem W3_v44 (c : Dev nD) : W3 m ρ c (Proc.devRef .tc main_v44) = shapeCast S1x256 (m ((c : Thread nD τ).loc main_arg3)) shapeCasts_S256_S1x256 := by
  have h : W3 m ρ c (Proc.devRef .tc main_v44) = shapeCast S1x256 (W2 m ρ c (Proc.devRef .tc main_arg3)) shapeCasts_S256_S1x256 := by
    show StableHlo.after hostOps1 (W2 m ρ c) (Proc.devRef .tc main_v44) = _
    after_results_simp
    rfl
  rw [h, W2_arg3]

set_option maxHeartbeats 8000000 in
theorem W3_v6 (c : Dev nD) : W3 m ρ c (Proc.devRef .tc main_v6) = (mmul (M := 50000) (K := 128) (N := 256) (m ((c : Thread nD τ).loc main_arg0)) (m ((c : Thread nD τ).loc main_arg2))) := by
  have h : W3 m ρ c (Proc.devRef .tc main_v6) = W2 m ρ c (Proc.devRef .tc main_v6) := by
    show StableHlo.after hostOps1 (W2 m ρ c) (Proc.devRef .tc main_v6) = _
    after_results_simp <;> rfl
  exact h.trans (W2_v6 m ρ c)

set_option maxHeartbeats 8000000 in
theorem W3_v1 (c : Dev nD) : W3 m ρ c (Proc.devRef .tc main_v1) = srcOf (F := Ideal) (m ((c : Thread nD τ).loc main_arg1)) := by
  have h : W3 m ρ c (Proc.devRef .tc main_v1) = W2 m ρ c (Proc.devRef .tc main_v1) := by
    show StableHlo.after hostOps1 (W2 m ρ c) (Proc.devRef .tc main_v1) = _
    after_results_simp <;> rfl
  exact h.trans (W2_v1 m ρ c)

set_option maxHeartbeats 8000000 in
theorem W3_v3 (c : Dev nD) : W3 m ρ c (Proc.devRef .tc main_v3) = dstOf (F := Ideal) (m ((c : Thread nD τ).loc main_arg1)) := by
  have h : W3 m ρ c (Proc.devRef .tc main_v3) = W2 m ρ c (Proc.devRef .tc main_v3) := by
    show StableHlo.after hostOps1 (W2 m ρ c) (Proc.devRef .tc main_v3) = _
    after_results_simp <;> rfl
  exact h.trans (W2_v3 m ρ c)

set_option maxHeartbeats 8000000 in
theorem W3_arg4 (c : Dev nD) : W3 m ρ c (Proc.devRef .tc main_arg4) = (m ((c : Thread nD τ).loc main_arg4)) := by
  have h : W3 m ρ c (Proc.devRef .tc main_arg4) = W2 m ρ c (Proc.devRef .tc main_arg4) := by
    show StableHlo.after hostOps1 (W2 m ρ c) (Proc.devRef .tc main_arg4) = _
    after_results_simp <;> rfl
  exact h.trans (W2_arg4 m ρ c)

set_option maxHeartbeats 8000000 in
theorem W3_arg5 (c : Dev nD) : W3 m ρ c (Proc.devRef .tc main_arg5) = (m ((c : Thread nD τ).loc main_arg5)) := by
  have h : W3 m ρ c (Proc.devRef .tc main_arg5) = W2 m ρ c (Proc.devRef .tc main_arg5) := by
    show StableHlo.after hostOps1 (W2 m ρ c) (Proc.devRef .tc main_arg5) = _
    after_results_simp <;> rfl
  exact h.trans (W2_arg5 m ρ c)

/-! ## After region 1: the first layer -/

theorem W4_v45 (c : Dev nD) : W4 m ρ c (Proc.devRef .tc main_v45) = (layer1 (m ((c : Thread nD τ).loc main_arg0)) (m ((c : Thread nD τ).loc main_arg1)) (m ((c : Thread nD τ).loc main_arg2)) (m ((c : Thread nD τ).loc main_arg3))) := by
  refine (W4_arr m ρ c 4).trans ((Cert.KernelIdeal.Region1.final1 (V3 m ρ) c).trans ?_)
  show reluZ (selfBias (W3 m ρ c (Proc.devRef .tc main_v41)) (W3 m ρ c (Proc.devRef .tc main_v6)) (W3 m ρ c (Proc.devRef .tc main_v43)) (W3 m ρ c (Proc.devRef .tc main_v44))) = _
  rw [W3_v41, W3_v6, W3_v43, W3_v44]
  rfl

theorem W4_v1 (c : Dev nD) : W4 m ρ c (Proc.devRef .tc main_v1) = srcOf (F := Ideal) (m ((c : Thread nD τ).loc main_arg1)) :=
  (W4_of_ne m ρ c main_v1 (by decide)).trans (W3_v1 m ρ c)

theorem W4_v3 (c : Dev nD) : W4 m ρ c (Proc.devRef .tc main_v3) = dstOf (F := Ideal) (m ((c : Thread nD τ).loc main_arg1)) :=
  (W4_of_ne m ρ c main_v3 (by decide)).trans (W3_v3 m ρ c)

theorem W4_arg4 (c : Dev nD) : W4 m ρ c (Proc.devRef .tc main_arg4) = (m ((c : Thread nD τ).loc main_arg4)) :=
  (W4_of_ne m ρ c main_arg4 (by decide)).trans (W3_arg4 m ρ c)

theorem W4_arg5 (c : Dev nD) : W4 m ρ c (Proc.devRef .tc main_arg5) = (m ((c : Thread nD τ).loc main_arg5)) :=
  (W4_of_ne m ρ c main_arg5 (by decide)).trans (W3_arg5 m ρ c)

/-! ## After the third host stretch: narrowing, the identity -/

theorem W5_v46 (c : Dev nD) : W5 m ρ c (Proc.devRef .tc main_v46) = ((layer1 (m ((c : Thread nD τ).loc main_arg0)) (m ((c : Thread nD τ).loc main_arg1)) (m ((c : Thread nD τ).loc main_arg2)) (m ((c : Thread nD τ).loc main_arg3))) : S50000x256.Idx → EReal) := by
  have h : W5 m ρ c (Proc.devRef .tc main_v46) = (W4 m ρ c (Proc.devRef .tc main_v45) : S50000x256.Idx → EReal) := by
    show StableHlo.after hostOps2 (W4 m ρ c) (Proc.devRef .tc main_v46) = _
    after_results
    rfl
  exact h.trans (W4_v45 m ρ c)

theorem W5_v47 (c : Dev nD) : W5 m ρ c (Proc.devRef .tc main_v47) = ((m ((c : Thread nD τ).loc main_arg4)) : S256x128.Idx → EReal) := by
  have h : W5 m ρ c (Proc.devRef .tc main_v47) = (W4 m ρ c (Proc.devRef .tc main_arg4) : S256x128.Idx → EReal) := by
    show StableHlo.after hostOps2 (W4 m ρ c) (Proc.devRef .tc main_v47) = _
    after_results
    rfl
  exact h.trans (W4_arg4 m ρ c)

set_option maxHeartbeats 8000000 in
theorem W5_v1 (c : Dev nD) : W5 m ρ c (Proc.devRef .tc main_v1) = srcOf (F := Ideal) (m ((c : Thread nD τ).loc main_arg1)) := by
  have h : W5 m ρ c (Proc.devRef .tc main_v1) = W4 m ρ c (Proc.devRef .tc main_v1) := by
    show StableHlo.after hostOps2 (W4 m ρ c) (Proc.devRef .tc main_v1) = _
    after_results_simp <;> rfl
  exact h.trans (W4_v1 m ρ c)

set_option maxHeartbeats 8000000 in
theorem W5_v3 (c : Dev nD) : W5 m ρ c (Proc.devRef .tc main_v3) = dstOf (F := Ideal) (m ((c : Thread nD τ).loc main_arg1)) := by
  have h : W5 m ρ c (Proc.devRef .tc main_v3) = W4 m ρ c (Proc.devRef .tc main_v3) := by
    show StableHlo.after hostOps2 (W4 m ρ c) (Proc.devRef .tc main_v3) = _
    after_results_simp <;> rfl
  exact h.trans (W4_v3 m ρ c)

set_option maxHeartbeats 8000000 in
theorem W5_arg5 (c : Dev nD) : W5 m ρ c (Proc.devRef .tc main_arg5) = (m ((c : Thread nD τ).loc main_arg5)) := by
  have h : W5 m ρ c (Proc.devRef .tc main_arg5) = W4 m ρ c (Proc.devRef .tc main_arg5) := by
    show StableHlo.after hostOps2 (W4 m ρ c) (Proc.devRef .tc main_arg5) = _
    after_results_simp <;> rfl
  exact h.trans (W4_arg5 m ρ c)

/-! ## After region 2: the second dense product -/

theorem W6_v48 (c : Dev nD) : W6 m ρ c (Proc.devRef .tc main_v48) = (mmul (M := 50000) (K := 256) (N := 128) (layer1 (m ((c : Thread nD τ).loc main_arg0)) (m ((c : Thread nD τ).loc main_arg1)) (m ((c : Thread nD τ).loc main_arg2)) (m ((c : Thread nD τ).loc main_arg3))) (m ((c : Thread nD τ).loc main_arg4))) := by
  refine (W6_arr m ρ c 2).trans ((Cert.KernelIdeal.Region2.final2 (V5 m ρ) c).trans ?_)
  exact congrArg₂ (mmul (M := 50000) (K := 256) (N := 128)) (W5_v46 m ρ c) (W5_v47 m ρ c)

theorem W6_v1 (c : Dev nD) : W6 m ρ c (Proc.devRef .tc main_v1) = srcOf (F := Ideal) (m ((c : Thread nD τ).loc main_arg1)) :=
  (W6_of_ne m ρ c main_v1 (by decide)).trans (W5_v1 m ρ c)

theorem W6_v3 (c : Dev nD) : W6 m ρ c (Proc.devRef .tc main_v3) = dstOf (F := Ideal) (m ((c : Thread nD τ).loc main_arg1)) :=
  (W6_of_ne m ρ c main_v3 (by decide)).trans (W5_v3 m ρ c)

theorem W6_arg5 (c : Dev nD) : W6 m ρ c (Proc.devRef .tc main_arg5) = (m ((c : Thread nD τ).loc main_arg5)) :=
  (W6_of_ne m ρ c main_arg5 (by decide)).trans (W5_arg5 m ρ c)

/-! ## After the last host stretch: the graph chain on the second product -/

set_option maxHeartbeats 8000000 in
theorem W7_v83 (c : Dev nD) : W7 m ρ c (Proc.devRef .tc main_v83) = agg128 (F := Ideal) (mmul (M := 50000) (K := 256) (N := 128) (layer1 (m ((c : Thread nD τ).loc main_arg0)) (m ((c : Thread nD τ).loc main_arg1)) (m ((c : Thread nD τ).loc main_arg2)) (m ((c : Thread nD τ).loc main_arg3))) (m ((c : Thread nD τ).loc main_arg4))) (srcOf (F := Ideal) (m ((c : Thread nD τ).loc main_arg1))) (dstOf (F := Ideal) (m ((c : Thread nD τ).loc main_arg1))) := by
  have h : W7 m ρ c (Proc.devRef .tc main_v83)
      = agg128 (F := Ideal) (W6 m ρ c (Proc.devRef .tc main_v48)) (W6 m ρ c (Proc.devRef .tc main_v1)) (W6 m ρ c (Proc.devRef .tc main_v3)) := by
    show StableHlo.after hostOps3 (W6 m ρ c) (Proc.devRef .tc main_v83) = _
    after_results_simp
    rfl
  rw [h, W6_v48, W6_v1, W6_v3]

set_option maxHeartbeats 8000000 in
theorem W7_v85 (c : Dev nD) : W7 m ρ c (Proc.devRef .tc main_v85)
    = shapeCast S50000x1 (dinv2Of (F := Ideal) (dstOf (F := Ideal) (m ((c : Thread nD τ).loc main_arg1)))) shapeCasts_S50000_S50000x1 := by
  have h : W7 m ρ c (Proc.devRef .tc main_v85)
      = shapeCast S50000x1 (dinv2Of (F := Ideal) (W6 m ρ c (Proc.devRef .tc main_v3))) shapeCasts_S50000_S50000x1 := by
    show StableHlo.after hostOps3 (W6 m ρ c) (Proc.devRef .tc main_v85) = _
    after_results_simp
    rfl
  rw [h, W6_v3]

set_option maxHeartbeats 8000000 in
theorem W7_v86 (c : Dev nD) : W7 m ρ c (Proc.devRef .tc main_v86) = shapeCast S1x128 (m ((c : Thread nD τ).loc main_arg5)) shapeCasts_S128_S1x128 := by
  have h : W7 m ρ c (Proc.devRef .tc main_v86) = shapeCast S1x128 (W6 m ρ c (Proc.devRef .tc main_arg5)) shapeCasts_S128_S1x128 := by
    show StableHlo.after hostOps3 (W6 m ρ c) (Proc.devRef .tc main_v86) = _
    after_results_simp
    rfl
  rw [h, W6_arg5]

set_option maxHeartbeats 8000000 in
theorem W7_v48 (c : Dev nD) : W7 m ρ c (Proc.devRef .tc main_v48) = (mmul (M := 50000) (K := 256) (N := 128) (layer1 (m ((c : Thread nD τ).loc main_arg0)) (m ((c : Thread nD τ).loc main_arg1)) (m ((c : Thread nD τ).loc main_arg2)) (m ((c : Thread nD τ).loc main_arg3))) (m ((c : Thread nD τ).loc main_arg4))) := by
  have h : W7 m ρ c (Proc.devRef .tc main_v48) = W6 m ρ c (Proc.devRef .tc main_v48) := by
    show StableHlo.after hostOps3 (W6 m ρ c) (Proc.devRef .tc main_v48) = _
    after_results_simp <;> rfl
  exact h.trans (W6_v48 m ρ c)

/-! ## After region 3: the result -/

/-- The result array at the last boundary is the two-layer graph convolution of the six arguments. -/
theorem W8_v87 (c : Dev nD) : W8 m ρ c (Proc.devRef .tc main_v87)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 4).trans ((Cert.KernelIdeal.Region3.final3 (V7 m ρ) c).trans ?_)
  show selfBias (W7 m ρ c (Proc.devRef .tc main_v83)) (W7 m ρ c (Proc.devRef .tc main_v48)) (W7 m ρ c (Proc.devRef .tc main_v85)) (W7 m ρ c (Proc.devRef .tc main_v86)) = _
  rw [W7_v83, W7_v48, W7_v85, W7_v86]
  rfl

end Cert.KernelIdeal.KValue

end
-- ==== Proof.RefValue.lean ====
/-
  The reference program's result is the two-layer graph convolution `Layers.gcn` of its arguments.

  Stage by stage: its `dot_general`s are matrix products (a finite sum over the shared axis); its degree, edge-weight,
  gather and scatter-add stages are the shared graph chain applied to the same edge list; its self-loop weight
  dinv² spread across the columns and its bias spread down the rows read, at (p, q), dinv²(p) and b(q), which is
  what the one-column and one-row matrices of `selfBias` read there; and `relu` is the maximum with the float zero.
-/
import proofs.«153735_j50491635531994_1_alg».proof.Defs
import proofs.«153735_j50491635531994_1_alg».proof.Proof.Gen.KernelIdeal
import proofs.«153735_j50491635531994_1_alg».proof.Proof.Gen.ReferenceIdeal
import proofs.«153735_j50491635531994_1_alg».proof.Proof.Gen.ReferenceIdeal.Run
import proofs.«153735_j50491635531994_1_alg».proof.Proof.Gen.ReferenceIdeal.Read
import proofs.«153735_j50491635531994_1_alg».proof.Proof.Spec
import proofs.«153735_j50491635531994_1_alg».proof.Proof.Chain
import proofs.«153735_j50491635531994_1_alg».proof.Proof.Layers
import proofs.«153735_j50491635531994_1_alg».proof.Proof.LibPlainDot
import proofs.«153735_j50491635531994_1_alg».proof.Proof.LibBroadcast2

noncomputable section

namespace Cert.ReferenceIdeal.RefValue

open Idealize.ShloMosaic Idealize.ShloMosaic.ValueIdx
open Cert.ReferenceIdeal Cert.ReferenceIdeal.Read Cert.GcnSpec

/-! ## The reference's stages -/

section Stages

variable (x0 : (⟨S50000x128, .f32⟩ : BufTy).Contents (Elt Ideal)) (x1 : (⟨S2x800000, .i32⟩ : BufTy).Contents (Elt Ideal))
  (x2 : (⟨S128x256, .f32⟩ : BufTy).Contents (Elt Ideal)) (x3 : (⟨S256, .f32⟩ : BufTy).Contents (Elt Ideal))
  (x4 : (⟨S256x128, .f32⟩ : BufTy).Contents (Elt Ideal)) (x5 : (⟨S128, .f32⟩ : BufTy).Contents (Elt Ideal))

/-- The reference's first `dot_general` is the matrix product. -/
theorem mm1_eq : val_main_v4 (F := Ideal) x0 x2 = mmul x0 x2 := by
  funext j
  exact Cert.LibPlainDot.dotGeneral_plain (M := 50000) (K := 128) (N := 256) none _ x0 x2 j

/-- Source and destination rows of the edge list. -/
theorem src_eq : val_main_v1 (F := Ideal) x1 = Cert.KernelIdeal.Chain.srcOf (F := Ideal) x1 := rfl
theorem dst_eq : val_main_v3 (F := Ideal) x1 = Cert.KernelIdeal.Chain.dstOf (F := Ideal) x1 := rfl

/-- The first layer's aggregation stage is the shared chain on the reference's dense features. -/
theorem agg1_eq : val_main_v39 (F := Ideal) x0 x1 x2
    = Cert.KernelIdeal.Chain.agg256 (F := Ideal) (val_main_v4 (F := Ideal) x0 x2) (val_main_v1 (F := Ideal) x1) (val_main_v3 (F := Ideal) x1) := rfl

/-- The first layer's self-loop weights. -/
theorem loop1_eq : val_main_v40 (F := Ideal) x1 = Cert.KernelIdeal.Chain.dinv2Of (F := Ideal) (val_main_v3 (F := Ideal) x1) := rfl

/-- The first layer's self-loop weights spread across the columns read, at (p, q), the weight of node p. -/
theorem loop1_read (p : Fin 50000) (q : Fin 256) :
    val_main_v42 (F := Ideal) x1 (ix2 p q) = val_main_v40 (F := Ideal) x1 (ix1 p) := by
  rw [val_main_v42_apply, val_main_v41_apply]
  generalize val_main_v40 (F := Ideal) x1 = y
  exact congrArg y (funext fun a => by match a with | ⟨0, _⟩ => rfl)

/-- The first layer's bias spread down the rows reads, at (p, q), the bias of column q. -/
theorem bias1_read (p : Fin 50000) (q : Fin 256) : val_main_v46 (F := Ideal) x3 (ix2 p q) = x3 (ix1 q) := by
  rw [val_main_v46_apply, val_main_v45_apply]
  exact congrArg x3 (funext fun a => by match a with | ⟨0, _⟩ => rfl)

/-- The second layer's self-loop weights spread across the columns read, at (p, q), the weight of node p. -/
theorem loop2_read (p : Fin 50000) (q : Fin 128) :
    val_main_v87 (F := Ideal) x1 (ix2 p q) = val_main_v85 (F := Ideal) x1 (ix1 p) := by
  rw [val_main_v87_apply, val_main_v86_apply]
  generalize val_main_v85 (F := Ideal) x1 = y
  exact congrArg y (funext fun a => by match a with | ⟨0, _⟩ => rfl)

/-- The second layer's bias spread down the rows reads, at (p, q), the bias of column q. -/
theorem bias2_read (p : Fin 50000) (q : Fin 128) : val_main_v91 (F := Ideal) x5 (ix2 p q) = x5 (ix1 q) := by
  rw [val_main_v91_apply, val_main_v90_apply]
  exact congrArg x5 (funext fun a => by match a with | ⟨0, _⟩ => rfl)

/-- The first layer's last step in the host's form is `selfBias`. -/
theorem tail1_eq : val_main_v47 (F := Ideal) x0 x1 x2 x3
    = selfBias (val_main_v39 (F := Ideal) x0 x1 x2) (val_main_v4 (F := Ideal) x0 x2)
        (shapeCast Cert.KernelIdeal.S50000x1 (val_main_v40 (F := Ideal) x1) Cert.KernelIdeal.Facts₀.shapeCasts_S50000_S50000x1)
        (shapeCast Cert.KernelIdeal.S1x256 x3 Cert.KernelIdeal.Facts₀.shapeCasts_S256_S1x256) := by
  funext j
  obtain ⟨p, q, rfl⟩ : ∃ (p : Fin 50000) (q : Fin 256), j = ix2 p q := ⟨j 0, j 1, eq_ix2 j⟩
  rw [val_main_v47_apply, val_main_v44_apply, val_main_v43_apply, loop1_read x1 p q, bias1_read x3 p q]
  generalize val_main_v39 (F := Ideal) x0 x1 x2 = A
  generalize val_main_v4 (F := Ideal) x0 x2 = H
  generalize val_main_v40 (F := Ideal) x1 = Dv
  show (A (ix2 p q) + H (ix2 p q) * Dv (ix1 p)) + x3 (ix1 q)
    = (A (ix2 p q) + H (ix2 p q) * shapeCast Cert.KernelIdeal.S50000x1 Dv Cert.KernelIdeal.Facts₀.shapeCasts_S50000_S50000x1 (ix2 p (0 : Fin 1)))
      + shapeCast Cert.KernelIdeal.S1x256 x3 Cert.KernelIdeal.Facts₀.shapeCasts_S256_S1x256 (ix2 (0 : Fin 1) q)
  rw [Cert.LibBroadcast2.colReshape_apply, Cert.LibBroadcast2.rowReshape_apply]

/-- `relu` is the maximum with the float zero. -/
theorem relu1_eq : val_main_v48 (F := Ideal) x0 x1 x2 x3 = reluZ (val_main_v47 (F := Ideal) x0 x1 x2 x3) := by
  funext j
  rw [val_main_v48_apply, val_main_call0_v0_apply, val_main_call0_cst_apply]
  generalize val_main_v47 (F := Ideal) x0 x1 x2 x3 = y
  rfl

/-- The reference's hidden features are the first layer of the graph convolution. -/
theorem layer1_eq : val_main_v48 (F := Ideal) x0 x1 x2 x3 = Cert.KernelIdeal.Layers.layer1 x0 x1 x2 x3 := by
  rw [relu1_eq, tail1_eq, agg1_eq, loop1_eq, mm1_eq, src_eq, dst_eq]
  unfold Cert.KernelIdeal.Layers.layer1
  with_reducible rfl

/-- The reference's second `dot_general` is the matrix product of the hidden features with W2. -/
theorem mm2_eq : val_main_v49 (F := Ideal) x0 x1 x2 x3 x4 = mmul (val_main_v48 (F := Ideal) x0 x1 x2 x3) x4 := by
  funext j
  exact Cert.LibPlainDot.dotGeneral_plain (M := 50000) (K := 256) (N := 128) none _ (val_main_v48 (F := Ideal) x0 x1 x2 x3) x4 j

/-- The second layer's aggregation stage is the shared chain on the reference's second product. -/
theorem agg2_eq : val_main_v84 (F := Ideal) x0 x1 x2 x3 x4
    = Cert.KernelIdeal.Chain.agg128 (F := Ideal) (val_main_v49 (F := Ideal) x0 x1 x2 x3 x4) (val_main_v1 (F := Ideal) x1) (val_main_v3 (F := Ideal) x1) := rfl

/-- The second layer's self-loop weights. -/
theorem loop2_eq : val_main_v85 (F := Ideal) x1 = Cert.KernelIdeal.Chain.dinv2Of (F := Ideal) (val_main_v3 (F := Ideal) x1) := rfl

/-- The second layer's last step in the host's form is `selfBias`. -/
theorem tail2_eq : val_main_v92 (F := Ideal) x0 x1 x2 x3 x4 x5
    = selfBias (val_main_v84 (F := Ideal) x0 x1 x2 x3 x4) (val_main_v49 (F := Ideal) x0 x1 x2 x3 x4)
        (shapeCast Cert.KernelIdeal.S50000x1 (val_main_v85 (F := Ideal) x1) Cert.KernelIdeal.Facts₀.shapeCasts_S50000_S50000x1)
        (shapeCast Cert.KernelIdeal.S1x128 x5 Cert.KernelIdeal.Facts₀.shapeCasts_S128_S1x128) := by
  funext j
  obtain ⟨p, q, rfl⟩ : ∃ (p : Fin 50000) (q : Fin 128), j = ix2 p q := ⟨j 0, j 1, eq_ix2 j⟩
  rw [val_main_v92_apply, val_main_v89_apply, val_main_v88_apply, loop2_read x1 p q, bias2_read x5 p q]
  generalize val_main_v84 (F := Ideal) x0 x1 x2 x3 x4 = A
  generalize val_main_v49 (F := Ideal) x0 x1 x2 x3 x4 = H
  generalize val_main_v85 (F := Ideal) x1 = Dv
  show (A (ix2 p q) + H (ix2 p q) * Dv (ix1 p)) + x5 (ix1 q)
    = (A (ix2 p q) + H (ix2 p q) * shapeCast Cert.KernelIdeal.S50000x1 Dv Cert.KernelIdeal.Facts₀.shapeCasts_S50000_S50000x1 (ix2 p (0 : Fin 1)))
      + shapeCast Cert.KernelIdeal.S1x128 x5 Cert.KernelIdeal.Facts₀.shapeCasts_S128_S1x128 (ix2 (0 : Fin 1) q)
  rw [Cert.LibBroadcast2.colReshape_apply, Cert.LibBroadcast2.rowReshape_apply]

/-- The reference's result is the two-layer graph convolution of its arguments. -/
theorem ref_eq : val_main_v92 (F := Ideal) x0 x1 x2 x3 x4 x5 = Cert.KernelIdeal.Layers.gcn x0 x1 x2 x3 x4 x5 := by
  rw [tail2_eq, agg2_eq, loop2_eq, mm2_eq, layer1_eq, src_eq, dst_eq]
  unfold Cert.KernelIdeal.Layers.gcn Cert.KernelIdeal.Layers.layer2
  with_reducible rfl

end Stages

end Cert.ReferenceIdeal.RefValue

end
-- ==== Proof.lean ====
/-
  The certificate of a two-layer graph convolution.

  Kernel: per layer a Pallas matrix product h = a · W on bf16-narrowed operands (25 row blocks of 2000 nodes), the graph
  part on the host (degrees, dinv = deg^(-1/2), per-edge weights, gather and scatter-add), and a Pallas combine
  (agg + h · dinv²) + b, with a maximum with zero after the first layer.  Reference: the same layer with a host
  `dot_general` and host broadcasts.  On the extended reals narrowing to bf16 is the identity and both matrix products
  are the finite sum over the shared axis, so both programs compute the same function `Layers.gcn` of the six arguments:
  the graph part is the same chain of host operations applied to equal feature matrices, and the combine reads, at
  (p, q), (agg(p, q) + h(p, q) · dinv²(p)) + b(q) on both sides.  No law of arithmetic is used, so the precondition
  is not opened.

  The three frames are the generated ones (the reference's is its generated run with the result dropped); the ideal
  pass rewrote nothing, so `preserves` is trivial.
-/
import proofs.«153735_j50491635531994_1_alg».proof.Defs
import proofs.«153735_j50491635531994_1_alg».proof.Proof.Gen.Kernel
import proofs.«153735_j50491635531994_1_alg».proof.Proof.Gen.Kernel.Frame
import proofs.«153735_j50491635531994_1_alg».proof.Proof.Gen.KernelIdeal
import proofs.«153735_j50491635531994_1_alg».proof.Proof.Gen.KernelIdeal.Frame
import proofs.«153735_j50491635531994_1_alg».proof.Proof.Gen.ReferenceIdeal
import proofs.«153735_j50491635531994_1_alg».proof.Proof.Gen.ReferenceIdeal.Run
import proofs.«153735_j50491635531994_1_alg».proof.Proof.Gen.ReferenceIdeal.Read
import proofs.«153735_j50491635531994_1_alg».proof.Proof.Gen.Pre_finite_inputs
import proofs.«153735_j50491635531994_1_alg».proof.Proof.KRun
import proofs.«153735_j50491635531994_1_alg».proof.Proof.KValue
import proofs.«153735_j50491635531994_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the two-layer graph convolution of the (agreeing) arguments. -/
theorem algebraic : Cert.algebraic_KernelIdeal_ReferenceIdeal := by
  intro m ρ m' ρ' _ hagree
  refine ⟨fun c => Cert.KernelIdeal.Layers.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.W8_v87 m ρ c), (h c).2⟩)
      (Cert.KernelIdeal.Gen.run_out (F := Ideal) m ρ)
  · refine (θ_run Cert.ReferenceIdeal.defs _ _).mono (fun r h c => ⟨?_, (h c).2⟩)
      (Cert.ReferenceIdeal.Value.run (F := Ideal) m' ρ')
    refine (h c).1.trans ((Cert.ReferenceIdeal.Read.val_main_v92_eq m' c).trans
      ((Cert.ReferenceIdeal.RefValue.ref_eq _ _ _ _ _ _).trans ?_))
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
